-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x64 .f32) (main_arg3 : FVec F S64 .f32) (main_arg4 : FVec F S64x16 .f32) (main_arg5 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S1x16 : Shape := ⟨2, ![1, 16]⟩
abbrev S10000x64 : Shape := ⟨2, ![10000, 64]⟩
abbrev S10000x16 : Shape := ⟨2, ![10000, 16]⟩
abbrev S200x10000 : Shape := ⟨2, ![200, 10000]⟩
abbrev S200x16 : Shape := ⟨2, ![200, 16]⟩
abbrev S200x64 : Shape := ⟨2, ![200, 64]⟩
abbrev S200 : Shape := ⟨1, ![200]⟩
abbrev S200x1 : Shape := ⟨2, ![200, 1]⟩

abbrev nBuf : Space → Nat
  | .hbm => 11
  | .vmem => 16
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x64, .f32⟩
  | .hbm, ⟨7, _⟩ => ⟨S1x16, .f32⟩
  | .hbm, ⟨8, _⟩ => ⟨S10000x64, .f32⟩
  | .hbm, ⟨9, _⟩ => ⟨S10000x16, .f32⟩
  | .hbm, ⟨10, _⟩ => ⟨S10000x16, .f32⟩
  | .local _ .vmem, ⟨0, _⟩ => ⟨S10000x128, .f32⟩
  | .local _ .vmem, ⟨1, _⟩ => ⟨S128x64, .f32⟩
  | .local _ .vmem, ⟨2, _⟩ => ⟨S10000x64, .f32⟩
  | .local _ .vmem, ⟨3, _⟩ => ⟨S200x10000, .f32⟩
  | .local _ .vmem, ⟨4, _⟩ => ⟨S200x10000, .f32⟩
  | .local _ .vmem, ⟨5, _⟩ => ⟨S10000x64, .f32⟩
  | .local _ .vmem, ⟨6, _⟩ => ⟨S1x64, .f32⟩
  | .local _ .vmem, ⟨7, _⟩ => ⟨S64x16, .f32⟩
  | .local _ .vmem, ⟨8, _⟩ => ⟨S200x16, .f32⟩
  | .local _ .vmem, ⟨9, _⟩ => ⟨S200x16, .f32⟩
  | .local _ .vmem, ⟨10, _⟩ => ⟨S200x10000, .f32⟩
  | .local _ .vmem, ⟨11, _⟩ => ⟨S200x10000, .f32⟩
  | .local _ .vmem, ⟨12, _⟩ => ⟨S10000x16, .f32⟩
  | .local _ .vmem, ⟨13, _⟩ => ⟨S1x16, .f32⟩
  | .local _ .vmem, ⟨14, _⟩ => ⟨S200x16, .f32⟩
  | .local _ .vmem, ⟨15, _⟩ => ⟨S200x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg4_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S200x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64_S1x64 : S64.ShapeCasts S1x64
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  inb_S200x10000_S200x10000_0_0 : ∀ a, (![0, 0] : Fin 2 → Nat) a + S200x10000.size a ≤ S200x10000.size a
  h_S200x10000 : 0 < S200x10000.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x16_S64x16_0_0 : ∀ a, (![0, 0] : Fin 2 → Nat) a + S64x16.size a ≤ S64x16.size a
  h_S64x16 : 0 < S64x16.numel
  inb_S200x16_S200x16_0_0 : ∀ a, (![0, 0] : Fin 2 → Nat) a + S200x16.size a ≤ S200x16.size a
  h_S200x16 : 0 < S200x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  reduces_S200x16_S200 : S200x16.Reduces [1] S200
  shapeCasts_S200_S200x1 : S200.ShapeCasts S200x1
  broadcasts_S200x1_S200x16 : S200x1.Broadcasts S200x16
  dot_S10000x128_S128x64_S10000x64_1_0_0_1_n_n_wf : DotDims.WF S10000x128 S128x64 S10000x64 [1] [0] [0] [1] [] []
  dot_S200x10000_S10000x64_S200x64_1_0_0_1_n_n_wf : DotDims.WF S200x10000 S10000x64 S200x64 [1] [0] [0] [1] [] []
  dot_S200x64_S64x16_S200x16_1_0_0_1_n_n_wf : DotDims.WF S200x64 S64x16 S200x16 [1] [0] [0] [1] [] []
  dot_S200x10000_S10000x16_S200x16_1_0_0_1_n_n_wf : DotDims.WF S200x10000 S10000x16 S200x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S200x16.size a ≤ S10000x16.size a
  hwx1_4 : ∀ i : grid1.Coords, EltTy.bits .f32 = 32 ∨ (Rect.block (s := S10000x16) S200x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .f32 = 32 ∨ (Rect.block (s := S10000x10000) S200x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S200x16.size a ≤ S10000x16.size a
  hwx2_3 : ∀ i : grid2.Coords, EltTy.bits .f32 = 32 ∨ (Rect.block (s := S10000x16) S200x16.size (cc2_transform_3 i) (hinb2_3 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x16_S200x16_1_0_0_1_n_n : DotDims S200x64 S64x16 S200x16 where
  lhsContracting := [1]
  rhsContracting := [0]
  lhsNonContracting := [0]
  rhsNonContracting := [1]
  lhsBatch := []
  rhsBatch := []
  wf := dot_S200x64_S64x16_S200x16_1_0_0_1_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v2) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S200x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v1) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S200x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩
abbrev S1x16 : Shape := ⟨2, ![1, 16]⟩
abbrev S10000 : Shape := ⟨1, ![10000]⟩
abbrev S10000x1 : Shape := ⟨2, ![10000, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S10000x64, .f32⟩
  | .hbm, ⟨7, _⟩ => ⟨S10000x64, .f32⟩
  | .hbm, ⟨8, _⟩ => ⟨S1x64, .f32⟩
  | .hbm, ⟨9, _⟩ => ⟨S10000x64, .f32⟩
  | .hbm, ⟨10, _⟩ => ⟨S10000x64, .f32⟩
  | .hbm, ⟨11, _⟩ => ⟨S_, .f32⟩
  | .hbm, ⟨12, _⟩ => ⟨S10000x64, .f32⟩
  | .hbm, ⟨13, _⟩ => ⟨S10000x64, .f32⟩
  | .hbm, ⟨14, _⟩ => ⟨S10000x16, .f32⟩
  | .hbm, ⟨15, _⟩ => ⟨S10000x16, .f32⟩
  | .hbm, ⟨16, _⟩ => ⟨S1x16, .f32⟩
  | .hbm, ⟨17, _⟩ => ⟨S10000x16, .f32⟩
  | .hbm, ⟨18, _⟩ => ⟨S10000x16, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x16, .f32⟩
  | .hbm, ⟨26, _⟩ => ⟨S10000x16, .f32⟩
  | .hbm, ⟨27, _⟩ => ⟨S10000x16, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x1, .f32⟩
  | .hbm, ⟨32, _⟩ => ⟨S10000x16, .f32⟩
  | .hbm, ⟨33, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_cst : Ref sig .tc := ⟨.hbm, 19, rfl⟩
abbrev main_call0_v0 : Ref sig .tc := ⟨.hbm, 20, rfl⟩
abbrev main_call0_cst_0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_cst_1 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_v12 : Ref sig .tc := ⟨.hbm, 33, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.LibPlainDot.lean ====
/-
  A matrix product's contraction sum, re-indexed.

  For a contraction of a [R, K] array with a [K, C] array (no batch axis; the left operand contracts its
  axis 1, the right operand its axis 0), the sum over the contraction's own index type of the operands' products at
  the result index (p, q) is the plain sum over k < K of l(p, k) * r(k, q).  Stated at abstract extents and for
  any such dimension record, so that one lemma serves every matrix product of a program, whatever its sizes.

  The operand indices are read one axis at a time.  The left operand's axis 0 is its only non-contracting axis and
  there is no batch axis, so it reads the result index at position 0 + 0; its axis 1 is the only contracting axis and
  reads the contraction index's one coordinate.  The right operand's axis 0 is its only contracting axis; its axis 1
  is its only non-contracting axis and reads the result index at position 0 + 1 + 0, after the left operand's one
  non-contracting axis.  The contraction index type has one axis of extent K, so it is in bijection with the numbers
  below K, and the sum is carried along that bijection.
-/
import Idealize.ShloMosaic.PureOps.Dims
import Idealize.ShloMosaic.Lib.ValueIdx

namespace PlainDot

open Idealize.ShloMosaic Idealize.ShloMosaic.ValueIdx

variable {R K C : Nat}

/-- A coordinate of an index depends only on the axis' number, not on how the number is written. -/
private theorem coord_val_congr {s : Shape} (j : s.Idx) (a b : Nat) (ha : a < s.rank) (hb : b < s.rank) (h : a = b) :
    (j ⟨a, ha⟩).val = (j ⟨b, hb⟩).val := by
  subst h; rfl

/-- The left operand's axis 0, the only non-contracting axis with no batch axis before it, reads the result
    index's coordinate 0. -/
theorem lhs_val_0 (d : DotDims ⟨2, ![R, K]⟩ ⟨2, ![K, C]⟩ ⟨2, ![R, C]⟩)
    (hlb : d.lhsBatch = []) (hln : d.lhsNonContracting = [0])
    (j : (⟨2, ![R, C]⟩ : Shape).Idx) (k : d.contr.Idx) :
    (d.lhsIdx j k (0 : Fin 2)).val = (j (0 : Fin 2)).val := by
  have hb : ¬ (0 : Fin 2) ∈ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  exact coord_val_congr j _ _ _ _ (by simp [hlb, hln])

/-- The left operand's axis 1, the only contracting axis, reads the contraction index's one coordinate. -/
theorem lhs_val_1 (d : DotDims ⟨2, ![R, K]⟩ ⟨2, ![K, C]⟩ ⟨2, ![R, C]⟩)
    (hlc : d.lhsContracting = [1]) (hr : d.contr.rank = 1)
    (j : (⟨2, ![R, C]⟩ : Shape).Idx) (k : d.contr.Idx) :
    (d.lhsIdx j k (1 : Fin 2)).val = (k ⟨0, by omega⟩).val :=
  d.lhsIdx_val_of_single hlc j k

/-- The right operand's axis 0, the only contracting axis, reads the contraction index's one coordinate. -/
theorem rhs_val_0 (d : DotDims ⟨2, ![R, K]⟩ ⟨2, ![K, C]⟩ ⟨2, ![R, C]⟩)
    (hrc : d.rhsContracting = [0]) (hr : d.contr.rank = 1)
    (j : (⟨2, ![R, C]⟩ : Shape).Idx) (k : d.contr.Idx) :
    (d.rhsIdx j k (0 : Fin 2)).val = (k ⟨0, by omega⟩).val :=
  d.rhsIdx_val_of_single hrc j k

/-- The right operand's axis 1, its only non-contracting axis, reads the result index's coordinate 1: the position
    after no batch axis and the left operand's one non-contracting axis. -/
theorem rhs_val_1 (d : DotDims ⟨2, ![R, K]⟩ ⟨2, ![K, C]⟩ ⟨2, ![R, C]⟩)
    (hrb : d.rhsBatch = []) (hrn : d.rhsNonContracting = [1])
    (hlb : d.lhsBatch = []) (hln : d.lhsNonContracting = [0])
    (j : (⟨2, ![R, C]⟩ : Shape).Idx) (k : d.contr.Idx) :
    (d.rhsIdx j k (1 : Fin 2)).val = (j (1 : Fin 2)).val := by
  have hb : ¬ (1 : Fin 2) ∈ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  exact coord_val_congr j _ _ _ _ (by simp [hlb, hln, hrn])

/-- The left operand's index at result index `(p, q)` and contraction position `k` is `(p, k)`. -/
theorem lhsIdx_eq (d : DotDims ⟨2, ![R, K]⟩ ⟨2, ![K, C]⟩ ⟨2, ![R, C]⟩)
    (hlb : d.lhsBatch = []) (hln : d.lhsNonContracting = [0]) (hlc : d.lhsContracting = [1])
    (hr : d.contr.rank = 1) (hs : d.contr.size ⟨0, by omega⟩ = K)
    (p : Fin R) (q : Fin C) (k : Fin K) :
    d.lhsIdx (ix2 p q) ((contrEquiv1 d K hr hs).symm k) = ix2 p k := by
  funext a
  apply Fin.ext
  match a with
  | ⟨0, _⟩ => exact lhs_val_0 d hlb hln (ix2 p q) _
  | ⟨1, _⟩ => exact (lhs_val_1 d hlc hr (ix2 p q) _).trans (contrEquiv1_symm_val d K hr hs k)

/-- The right operand's index at result index `(p, q)` and contraction position `k` is `(k, q)`. -/
theorem rhsIdx_eq (d : DotDims ⟨2, ![R, K]⟩ ⟨2, ![K, C]⟩ ⟨2, ![R, C]⟩)
    (hrb : d.rhsBatch = []) (hrn : d.rhsNonContracting = [1]) (hrc : d.rhsContracting = [0])
    (hlb : d.lhsBatch = []) (hln : d.lhsNonContracting = [0])
    (hr : d.contr.rank = 1) (hs : d.contr.size ⟨0, by omega⟩ = K)
    (p : Fin R) (q : Fin C) (k : Fin K) :
    d.rhsIdx (ix2 p q) ((contrEquiv1 d K hr hs).symm k) = ix2 k q := by
  funext a
  apply Fin.ext
  match a with
  | ⟨0, _⟩ => exact (rhs_val_0 d hrc hr (ix2 p q) _).trans (contrEquiv1_symm_val d K hr hs k)
  | ⟨1, _⟩ => exact rhs_val_1 d hrb hrn hlb hln (ix2 p q) _

/-- The contraction sum at `(p, q)` is `∑ k < K, l (p, k) * r (k, q)`. -/
theorem sum_eq {M : Type} [AddCommMonoid M] [Mul M] (d : DotDims ⟨2, ![R, K]⟩ ⟨2, ![K, C]⟩ ⟨2, ![R, C]⟩)
    (hlb : d.lhsBatch = []) (hln : d.lhsNonContracting = [0]) (hlc : d.lhsContracting = [1])
    (hrb : d.rhsBatch = []) (hrn : d.rhsNonContracting = [1]) (hrc : d.rhsContracting = [0])
    (l : (⟨2, ![R, K]⟩ : Shape).Idx → M) (r : (⟨2, ![K, C]⟩ : Shape).Idx → M) (p : Fin R) (q : Fin C) :
    ∑ k : d.contr.Idx, l (d.lhsIdx (ix2 p q) k) * r (d.rhsIdx (ix2 p q) k) = ∑ k : Fin K, l (ix2 p k) * r (ix2 k q) := by
  have hr : d.contr.rank = 1 := by rw [d.rank_contr, hlc]; rfl
  have hs : d.contr.size ⟨0, by omega⟩ = K := by
    have h := d.size_contr 0 (by rw [hlc]; exact Nat.one_pos)
    rw [h]
    simp [hlc]
  refine (Equiv.sum_comp (contrEquiv1 d K hr hs).symm _).symm.trans (Finset.sum_congr rfl fun k _ => ?_)
  rw [lhsIdx_eq d hlb hln hlc hr hs p q k, rhsIdx_eq d hrb hrn hrc hlb hln hr hs p q k]

end PlainDot
-- ==== Proof.Spec.lean ====
/-
  The two-layer graph convolution with a row-wise log-softmax, as plain functions of indexed families of extended reals.

  For an adjacency array A [N, N], features X [N, F], weights W1 [F, H], W2 [H, C] and biases b1 [H], b2 [C]:

      S      = X · W1                         (the first layer's support)
      T      = relu (A · S + b1) · W2         (the hidden activation, never kept, times the second weight)
      L      = A · T + b2                     (the logits)
      out    = L − rowmax L − log (Σ_q exp (L − rowmax L))

  Every function below reads its FIRST operand only at the row it is asked for, so a block of rows of the result is the
  same function of the same block of rows of that operand: restricting the rows of A commutes with each of them by
  definition.  No law of arithmetic is used anywhere: both programs compute these very sums, in these very groupings.
-/
import Idealize.ShloMosaic.PureOps.Ideal
import Mathlib.Data.Finset.Fold

noncomputable section

namespace Gcn

open Idealize.ShloMosaic

/-- The float zero the rectifier compares against, and the float minus infinity a row maximum starts from, kept as
    the words both programs print. -/
abbrev zeroW : EReal := Ideal.ofBits .f32 0x00000000#32
abbrev negInfW : EReal := Ideal.ofBits .f32 0xFF800000#32

/-- The product of an [R, K] family with a [K, C] family. -/
def mm {R K C : Nat} (l : Fin R → Fin K → EReal) (r : Fin K → Fin C → EReal) (p : Fin R) (q : Fin C) : EReal :=
  ∑ k : Fin K, l p k * r k q

/-- The rectified first layer times the second weight: entry (p, q) is Σ_j max (Σ_k A(p,k)·S(k,j) + b(j), 0) · W(j,q). -/
def hidden {R N H C : Nat} (A : Fin R → Fin N → EReal) (S : Fin N → Fin H → EReal) (b : Fin H → EReal)
    (W : Fin H → Fin C → EReal) (p : Fin R) (q : Fin C) : EReal :=
  ∑ j : Fin H, max (mm A S p j + b j) zeroW * W j q

/-- The logits: A · T with the bias added along the columns. -/
def logits {R N C : Nat} (A : Fin R → Fin N → EReal) (T : Fin N → Fin C → EReal) (b : Fin C → EReal)
    (p : Fin R) (q : Fin C) : EReal :=
  mm A T p q + b q

/-- A row's maximum, folded from minus infinity. -/
def rowMax {R C : Nat} (L : Fin R → Fin C → EReal) (p : Fin R) : EReal :=
  (Finset.univ : Finset (Fin C)).fold max negInfW (fun q => L p q)

/-- The shifted row: each entry minus its row's maximum. -/
def shifted {R C : Nat} (L : Fin R → Fin C → EReal) (p : Fin R) (q : Fin C) : EReal :=
  L p q - rowMax L p

/-- The row-wise log-softmax: the shifted entry minus the logarithm of the row's sum of exponentials of shifted entries. -/
def logSoftmax {R C : Nat} (L : Fin R → Fin C → EReal) (p : Fin R) (q : Fin C) : EReal :=
  shifted L p q - Ideal.log (∑ q' : Fin C, Ideal.exp (shifted L p q'))

/-- The whole network. -/
def net {N Fd H C : Nat} (X : Fin N → Fin Fd → EReal) (A : Fin N → Fin N → EReal) (W1 : Fin Fd → Fin H → EReal)
    (b1 : Fin H → EReal) (W2 : Fin H → Fin C → EReal) (b2 : Fin C → EReal) : Fin N → Fin C → EReal :=
  logSoftmax (logits A (hidden A (mm X W1) b1 W2) b2)

/-- Folding a maximum from a value and then taking the maximum with that value again changes nothing: the fold is
    already at least its starting value. -/
theorem max_fold_max_self {ι : Type} (s : Finset ι) (b : EReal) (f : ι → EReal) :
    max b (s.fold max b f) = s.fold max b f :=
  max_eq_right ((Finset.le_fold_max b).mpr (Or.inl le_rfl))

end Gcn

end
-- ==== Proof.Pay01.lean ====
/-
  The first two kernels' bodies at an index.

  The support kernel's one store holds the product of the [10000,128] block with the [128,64] block: entry (p, q) is
  Σ_k x0(p,k)·x1(k,q).  The first layer's store at a block of 200 rows holds, at (r, q),
  Σ_h max (Σ_k x0(r,k)·x1(k,h) + b(0,h), 0) · w(h,q): the block's rows against the whole support, the bias row
  broadcast down the rows, the rectifier, and the product with the second weight.  Each matrix product accumulates
  into a zero splat, so at the extended reals it is the bare contraction sum.
-/
import proofs.«140044_g18150531793495_cont_8to1_460_2_alg».proof.Proof.Gen.KernelIdeal.Skeleton
import proofs.«140044_g18150531793495_cont_8to1_460_2_alg».proof.Proof.LibPlainDot
import proofs.«140044_g18150531793495_cont_8to1_460_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay01

open Cert.KernelIdeal Cert.KernelIdeal.Gen Idealize.ShloMosaic Idealize.ShloMosaic.ValueIdx

/-- The support kernel's stored value at an index is the product's entry there. -/
theorem pay0_apply (x0 : Vec Ideal S10000x128 .f32) (x1 : Vec Ideal S128x64 .f32) (j : S10000x64.Idx) :
    k0_pay1 (F := Ideal) x0 x1 j
      = Gcn.mm (fun (p : Fin 10000) (k : Fin 128) => x0 (ix2 p k)) (fun (k : Fin 128) (q : Fin 64) => x1 (ix2 k q)) (j 0) (j 1) := by
  obtain ⟨p, q, rfl⟩ : ∃ (p : Fin 10000) (q : Fin 64), j = ix2 p q := ⟨j 0, j 1, eq_ix2 j⟩
  unfold k0_pay1
  simp only [matmul]
  rw [Ideal.matmul_constant_zero_apply]
  exact PlainDot.sum_eq _ rfl rfl rfl rfl rfl rfl _ _ p q

/-- The first layer's stored value at an index of its block of rows. -/
theorem pay1_apply (x0 : Vec Ideal S200x10000 .f32) (x1 : Vec Ideal S10000x64 .f32) (x4 : Vec Ideal S1x64 .f32)
    (x10 : Vec Ideal S64x16 .f32) (j : S200x16.Idx) :
    k1_pay1 (F := Ideal) x0 x1 x4 x10 j
      = Gcn.hidden (fun (r : Fin 200) (k : Fin 10000) => x0 (ix2 r k)) (fun (k : Fin 10000) (h : Fin 64) => x1 (ix2 k h))
          (fun (h : Fin 64) => x4 (ix2 0 h)) (fun (h : Fin 64) (q : Fin 16) => x10 (ix2 h q)) (j 0) (j 1) := by
  obtain ⟨r, q, rfl⟩ : ∃ (r : Fin 200) (q : Fin 16), j = ix2 r q := ⟨j 0, j 1, eq_ix2 j⟩
  unfold k1_pay1
  simp only [matmul]
  rw [Ideal.matmul_constant_zero_apply, PlainDot.sum_eq _ rfl rfl rfl rfl rfl rfl _ _ r q]
  refine Finset.sum_congr rfl fun h _ => ?_
  refine congrArg (· * x10 (ix2 h q)) ?_
  rw [maximumf_apply, addf_apply, broadcast_apply, shapeCast_self, shapeCast_self, Ideal.matmul_constant_zero_apply,
    PlainDot.sum_eq _ rfl rfl rfl rfl rfl rfl _ _ r h, broadcastTo_1b_ab_apply]
  rfl

end Cert.KernelIdeal.Pay01

end
-- ==== Proof.Reg0.lean ====
/-
  What the support region leaves in its output array.

  The region has no grid: its one point stages the whole feature array and the whole first weight, and the body stores
  their product over the whole [10000,64] output.  So the output array ends at the product of the arrays the region was
  entered with, index by index.
-/
import proofs.«140044_g18150531793495_cont_8to1_460_2_alg».proof.Proof.Gen.KernelIdeal.Frame
import proofs.«140044_g18150531793495_cont_8to1_460_2_alg».proof.Proof.Pay01
import Idealize.ShloMosaic.Lib.Pipeline.Value
import Idealize.ShloMosaic.Lib.ValueIdx

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The arrays the region is entered with: the features and the first weight. -/
abbrev feat (c : Dev nD) : Vec Ideal S10000x128 .f32 := V c main_arg0
abbrev wgt (c : Dev nD) : Vec Ideal S128x64 .f32 := V c main_arg2

/-- The two input windows' blocks at the region's point, at their literal types. -/
abbrev fblk (c : Dev nD) (t : Fin cfg0.N) : Vec Ideal S10000x128 .f32 := iblk0 V c 0 t
abbrev wblk (c : Dev nD) (t : Fin cfg0.N) : Vec Ideal S128x64 .f32 := iblk0 V c 1 t

/-- What the output array ends holding: the product of the entry arrays, index by index. -/
def G0 (c : Dev nD) : Vec Ideal S10000x64 .f32 := fun i =>
  Gcn.mm (fun (p : Fin 10000) (k : Fin 128) => feat V c (ix2 p k)) (fun (k : Fin 128) (q : Fin 64) => wgt V c (ix2 k q)) (i 0) (i 1)

theorem hz : (![0, 0] : Fin 2 → Nat) = fun _ => 0 := funext fun a => by fin_cases a <;> rfl

/-- Every window of the region sits at block (0, 0). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  fun _ => ⟨rfl, rfl, rfl, rfl, rfl, rfl⟩

/-- The feature window's block is the whole feature array. -/
theorem fblk_eq (c : Dev nD) (t : Fin cfg0.N) : fblk V c t = feat V c := by
  obtain ⟨e0, e1, -⟩ := idx_facts t
  funext y
  show V c main_arg0 (((cfg0.win 0).blk t).view.emb y) = V c main_arg0 y
  refine congrArg (V c main_arg0) (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

/-- The weight window's block is the whole weight array. -/
theorem wblk_eq (c : Dev nD) (t : Fin cfg0.N) : wblk V c t = wgt V c := by
  obtain ⟨-, -, e0, e1, -⟩ := idx_facts t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 64 + 1 * (y 1).val = (y 1).val; omega

/-- What the point writes back is the whole-array function read through the (whole) block. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x64) hz]
  funext j
  obtain ⟨-, -, -, -, e0, e1⟩ := idx_facts t
  show k0_pay1 (fblk V c t) (wblk V c t) (j : S10000x64.Idx) = G0 V c (((cfg0.win 2).blk t).view.emb j)
  rw [fblk_eq, wblk_eq]
  refine (Pay01.pay0_apply (feat V c) (wgt V c) j).trans ?_
  have h0 : (((cfg0.win 2).blk t).view.emb j) (0 : Fin 2) = j 0 := Fin.ext (by
    show win0_2.index t (0 : Fin 2) * 10000 + 1 * (j 0).val = (j 0).val; omega)
  have h1 : (((cfg0.win 2).blk t).view.emb j) (1 : Fin 2) = j 1 := Fin.ext (by
    show win0_2.index t (1 : Fin 2) * 64 + 1 * (j 1).val = (j 1).val; omega)
  unfold G0
  rw [h0, h1]

/-- An index of the output array is in the point's block iff each coordinate is in the block's range on its axis. -/
theorem mem_blk (t : Fin cfg0.N) (i : S10000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v2).slice (win0_2.rect t)).set ↔ _
  rw [View.set_slice_whole, Rect.mem_set_unit]
  exact Iff.rfl

/-- The one point's block is the whole array. -/
theorem cover (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  have ht : 0 < cfg0.N := by show 0 < 1; omega
  refine ⟨⟨0, ht⟩, flush0_2 _, ?_⟩
  rw [mem_blk]
  obtain ⟨-, -, -, -, e0, e1⟩ := idx_facts ⟨0, ht⟩
  intro a
  match a with
  | ⟨0, _⟩ =>
    show win0_2.index ⟨0, ht⟩ (0 : Fin 2) * 10000 ≤ (i 0).val ∧ (i 0).val < win0_2.index ⟨0, ht⟩ (0 : Fin 2) * 10000 + 10000
    rw [e0]; omega
  | ⟨1, _⟩ =>
    show win0_2.index ⟨0, ht⟩ (1 : Fin 2) * 64 ≤ (i 1).val ∧ (i 1).val < win0_2.index ⟨0, ht⟩ (1 : Fin 2) * 64 + 64
    rw [e1]; omega

/-- The output array after the region: the product of the arrays it was entered with. -/
theorem final0 (c : Dev nD) : (dat0 V c).arrAt 2 cfg0.N = G0 V c :=
  (dat0 V c).arrAt_eq_of_cover 2 (G0 V c) (fun t _ => flushed0 V c t) cover

end Cert.KernelIdeal.Reg0

end
-- ==== Proof.Reg1.lean ====
/-
  What the first layer's region leaves in its output array.

  The region walks 50 blocks of 200 rows.  At block t the adjacency window holds rows 200·t … 200·t+199 of the
  adjacency array, the three other input windows hold their whole arrays, and the body stores the block's
  hidden-layer product.  Because that product reads the adjacency operand only at the row asked for, the block stored at
  t is rows 200·t … 200·t+199 of ONE whole-array function, and the 50 blocks tile the [10000,16] output: the output
  array ends at that function of the arrays the region was entered with.
-/
import proofs.«140044_g18150531793495_cont_8to1_460_2_alg».proof.Proof.Gen.KernelIdeal.Frame
import proofs.«140044_g18150531793495_cont_8to1_460_2_alg».proof.Proof.Pay01
import Idealize.ShloMosaic.Lib.Pipeline.Value
import Idealize.ShloMosaic.Lib.ValueIdx

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The arrays the region is entered with: the adjacency, the support, the bias row and the second weight. -/
abbrev adj (c : Dev nD) : Vec Ideal S10000x10000 .f32 := V c main_arg1
abbrev sup (c : Dev nD) : Vec Ideal S10000x64 .f32 := V c main_v2
abbrev bias (c : Dev nD) : Vec Ideal S1x64 .f32 := V c main_v0
abbrev wgt (c : Dev nD) : Vec Ideal S64x16 .f32 := V c main_arg4

/-- The four input windows' blocks at a point, at their literal types. -/
abbrev ablk (c : Dev nD) (t : Fin cfg1.N) : Vec Ideal S200x10000 .f32 := iblk1 V c 0 t
abbrev sblk (c : Dev nD) (t : Fin cfg1.N) : Vec Ideal S10000x64 .f32 := iblk1 V c 1 t
abbrev bblk (c : Dev nD) (t : Fin cfg1.N) : Vec Ideal S1x64 .f32 := iblk1 V c 2 t
abbrev wblk (c : Dev nD) (t : Fin cfg1.N) : Vec Ideal S64x16 .f32 := iblk1 V c 3 t

/-- What the output array ends holding: the hidden-layer product of the entry arrays, index by index. -/
def G1 (c : Dev nD) : Vec Ideal S10000x16 .f32 := fun i =>
  Gcn.hidden (fun (p : Fin 10000) (k : Fin 10000) => adj V c (ix2 p k)) (fun (k : Fin 10000) (h : Fin 64) => sup V c (ix2 k h))
    (fun (h : Fin 64) => bias V c (ix2 0 h)) (fun (h : Fin 64) (q : Fin 16) => wgt V c (ix2 h q)) (i 0) (i 1)

theorem hz : (![0, 0] : Fin 2 → Nat) = fun _ => 0 := funext fun a => by fin_cases a <;> rfl

/-- The printed index maps over the grid: the adjacency and output windows sit at block row t, column block 0; the
    other windows at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row r of block t is row 200·t + r of the array. -/
def row (t : Fin cfg1.N) (r : Fin 200) : Fin 10000 := ⟨t.val * 200 + r.val, by have := t.isLt; have := r.isLt; show _ < 10000; have : t.val < 50 := t.isLt; omega⟩

/-- The adjacency window's block at t reads the adjacency array at the block's rows. -/
theorem ablk_apply (c : Dev nD) (t : Fin cfg1.N) (r : Fin 200) (k : Fin 10000) :
    ablk V c t (ix2 r k) = adj V c (ix2 (row t r) k) := by
  obtain ⟨e0, e1, -⟩ := idx_facts t
  show V c main_arg1 (((cfg1.win 0).blk t).view.emb (ix2 r k)) = V c main_arg1 (ix2 (row t r) k)
  refine congrArg (V c main_arg1) (funext fun a => Fin.ext ?_)
  match a with
  | ⟨0, _⟩ => show win1_0.index t (0 : Fin 2) * 200 + 1 * r.val = t.val * 200 + r.val; omega
  | ⟨1, _⟩ => show win1_0.index t (1 : Fin 2) * 10000 + 1 * k.val = k.val; omega

/-- The support window's block is the whole support array. -/
theorem sblk_eq (c : Dev nD) (t : Fin cfg1.N) : sblk V c t = sup V c := by
  obtain ⟨-, -, e0, e1, -⟩ := idx_facts t
  funext y
  show V c main_v2 (((cfg1.win 1).blk t).view.emb y) = V c main_v2 y
  refine congrArg (V c main_v2) (funext fun a => Fin.ext ?_)
  match a with
  | ⟨0, _⟩ => show win1_1.index t (0 : Fin 2) * 10000 + 1 * (y 0).val = (y 0).val; omega
  | ⟨1, _⟩ => show win1_1.index t (1 : Fin 2) * 64 + 1 * (y 1).val = (y 1).val; omega

/-- The bias window's block is the whole bias row. -/
theorem bblk_eq (c : Dev nD) (t : Fin cfg1.N) : bblk V c t = bias V c := by
  obtain ⟨-, -, -, -, e0, e1, -⟩ := idx_facts t
  funext y
  show V c main_v0 (((cfg1.win 2).blk t).view.emb y) = V c main_v0 y
  refine congrArg (V c main_v0) (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

/-- The weight window's block is the whole weight array. -/
theorem wblk_eq (c : Dev nD) (t : Fin cfg1.N) : wblk V c t = wgt V c := by
  obtain ⟨-, -, -, -, -, -, e0, e1, -⟩ := idx_facts t
  funext y
  show V c main_arg4 (((cfg1.win 3).blk t).view.emb y) = V c main_arg4 y
  refine congrArg (V c main_arg4) (funext fun a => Fin.ext ?_)
  match a with
  | ⟨0, _⟩ => show win1_3.index t (0 : Fin 2) * 64 + 1 * (y 0).val = (y 0).val; omega
  | ⟨1, _⟩ => show win1_3.index t (1 : Fin 2) * 16 + 1 * (y 1).val = (y 1).val; omega

/-- What point t writes back is block t of the whole-array function. -/
theorem flushed1 (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S200x10000) hz, View.ld_unit_zero (S := S10000x64) hz, View.ld_unit_zero (S := S1x64) hz, View.ld_unit_zero (S := S64x16) hz]
  funext j
  obtain ⟨-, -, -, -, -, -, -, -, e0, e1⟩ := idx_facts t
  show k1_pay1 (ablk V c t) (sblk V c t) (bblk V c t) (wblk V c t) (j : S200x16.Idx) = G1 V c (((cfg1.win 4).blk t).view.emb j)
  rw [sblk_eq, bblk_eq, wblk_eq]
  refine (Pay01.pay1_apply (ablk V c t) (sup V c) (bias V c) (wgt V c) j).trans ?_
  have hA : (fun (r : Fin 200) (k : Fin 10000) => ablk V c t (ix2 r k)) = fun r k => adj V c (ix2 (row t r) k) :=
    funext fun r => funext fun k => ablk_apply V c t r k
  rw [hA]
  have h0 : (((cfg1.win 4).blk t).view.emb j) (0 : Fin 2) = row t (j 0) := Fin.ext (by
    show win1_4.index t (0 : Fin 2) * 200 + 1 * (j 0).val = t.val * 200 + (j 0).val; omega)
  have h1 : (((cfg1.win 4).blk t).view.emb j) (1 : Fin 2) = j 1 := Fin.ext (by
    show win1_4.index t (1 : Fin 2) * 16 + 1 * (j 1).val = (j 1).val; omega)
  unfold G1
  rw [h0, h1]
  rfl

/-- An index of the output array is in point t's block iff each coordinate is in the block's range on its axis. -/
theorem mem_blk (t : Fin cfg1.N) (i : S10000x16.Idx) :
    i ∈ ((cfg1.win 4).blk t).view.set ↔ ∀ a : Fin 2, win1_4.index t a * S200x16.size a ≤ (i a).val ∧ (i a).val < win1_4.index t a * S200x16.size a + S200x16.size a := by
  show i ∈ ((View.whole main_v3).slice (win1_4.rect t)).set ↔ _
  rw [View.set_slice_whole, Rect.mem_set_unit]
  exact Iff.rfl

/-- Every index of the output array is in the block of the point its row falls in: row p is in block p / 200. -/
theorem cover (i : S10000x16.Idx) : ∃ t : Fin cfg1.N, (cfg1.win 4).flush t = true ∧ i ∈ ((cfg1.win 4).blk t).view.set := by
  have hi0 : (i 0).val < 10000 := (i 0).isLt
  have hi1 : (i 1).val < 16 := (i 1).isLt
  have ht : (i 0).val / 200 < cfg1.N := by show _ < 50; omega
  refine ⟨⟨(i 0).val / 200, ht⟩, flush1_4 _, ?_⟩
  rw [mem_blk]
  obtain ⟨-, -, -, -, -, -, -, -, e0, e1⟩ := idx_facts ⟨(i 0).val / 200, ht⟩
  intro a
  match a with
  | ⟨0, _⟩ =>
    show win1_4.index ⟨(i 0).val / 200, ht⟩ (0 : Fin 2) * 200 ≤ (i 0).val ∧ (i 0).val < win1_4.index ⟨(i 0).val / 200, ht⟩ (0 : Fin 2) * 200 + 200
    rw [e0]; show (i 0).val / 200 * 200 ≤ (i 0).val ∧ (i 0).val < (i 0).val / 200 * 200 + 200; omega
  | ⟨1, _⟩ =>
    show win1_4.index ⟨(i 0).val / 200, ht⟩ (1 : Fin 2) * 16 ≤ (i 1).val ∧ (i 1).val < win1_4.index ⟨(i 0).val / 200, ht⟩ (1 : Fin 2) * 16 + 16
    rw [e1]; omega

/-- The output array after the region: the hidden-layer product of the arrays it was entered with. -/
theorem final1 (c : Dev nD) : (dat1 V c).arrAt 4 cfg1.N = G1 V c :=
  (dat1 V c).arrAt_eq_of_cover 4 (G1 V c) (fun t _ => flushed1 V c t) cover

end Cert.KernelIdeal.Reg1

end
-- ==== Proof.Pay2.lean ====
/-
  The third kernel's body at the ideal values: a block of 200 rows of the adjacency times the [10000, 16] operand plus
  the bias, then the row-wise log-softmax of the block.

  The body is read stage by stage, each stage at explicit coordinates (r, q):
    * the logits      L(r, q) = Σ_k A(r, k) · T(k, q) + b(q);
    * the row maximum m(r)    = the fold of max over q of L(r, q), from minus infinity;
    * the shifted row s(r, q) = L(r, q) − m(r);
    * the row's sum   e(r)    = Σ_q exp (s(r, q));
    * the result              = s(r, q) − log (e(r)).
  The column forms in between (a [200] vector cast to [200, 1], a [200, 1] column broadcast along the rows' 16
  entries) only re-index: the cast keeps the row-major position, the broadcast reads the column's one entry.
-/
import proofs.«140044_g18150531793495_cont_8to1_460_2_alg».proof.Proof.Gen.KernelIdeal.Skeleton
import proofs.«140044_g18150531793495_cont_8to1_460_2_alg».proof.Proof.LibPlainDot
import proofs.«140044_g18150531793495_cont_8to1_460_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay2

open Cert.KernelIdeal Cert.KernelIdeal.Gen Idealize.ShloMosaic Idealize.ShloMosaic.ValueIdx

/-! ## The two column forms -/

/-- A [n] vector cast to a [n, 1] column reads, at (p, u), the vector at p: both have row-major position p. -/
theorem shapeCast_col_apply {α : Type} {n : ℕ} (x : (⟨1, ![n]⟩ : Shape).Idx → α)
    (h : (⟨1, ![n]⟩ : Shape).ShapeCasts ⟨2, ![n, 1]⟩) (p : Fin n) (u : Fin 1) :
    shapeCast ⟨2, ![n, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A [n, 1] column broadcast to [n, c] reads, at (p, q), the column's entry of row p. -/
theorem broadcastTo_col_apply {α : Type} {n c : ℕ} (v : (⟨2, ![n, 1]⟩ : Shape).Idx → α)
    (h : (⟨2, ![n, 1]⟩ : Shape).Broadcasts ⟨2, ![n, c]⟩) (p : Fin n) (q : Fin c) :
    broadcastTo ⟨2, ![n, c]⟩ v h (ix2 p q) = v (ix2 p (0 : Fin 1)) := by
  refine broadcastTo_apply v h (ix2 p q) (ix2 p (0 : Fin 1)) fun ax => ?_
  match ax with
  | ⟨0, _⟩ =>
    show p.val = if n = 1 then 0 else p.val
    split
    · have := p.isLt; omega
    · rfl
  | ⟨1, _⟩ => rfl

/-- The index a reduction over axis 1 of a [200, 16] array inserts at row r and position k is (r, k). -/
theorem lift_row (h : S200x16.Reduces [1] S200) (r : Fin 200) (k : Fin 16) : h.lift (ix1 r) k = ix2 r k := by
  funext a
  match a with
  | ⟨0, _⟩ => rfl
  | ⟨1, _⟩ => rfl

/-! ## The stages -/

section
variable (x0 : Vec Ideal S200x10000 .f32) (x1 : Vec Ideal S10000x16 .f32) (x4 : Vec Ideal S1x16 .f32)

/-- The logits of the specification at the block's operands. -/
abbrev L : Fin 200 → Fin 16 → EReal :=
  Gcn.logits (fun (r : Fin 200) (k : Fin 10000) => x0 (ix2 r k)) (fun (k : Fin 10000) (q : Fin 16) => x1 (ix2 k q))
    (fun (q : Fin 16) => x4 (ix2 0 q))

/-- The body's logits: the product into the zero splat plus the bias broadcast down the rows. -/
def lg : FVec Ideal S200x16 .f32 :=
  addf (matmul (φ₁ := .f32) (φ₂ := .f32) dot_S200x10000_S10000x16_S200x16_1_0_0_1_n_n none x0
      (shapeCast S10000x16 x1 shapeCasts_S10000x16_S10000x16) (constant S200x16 .f32 0x00000000#32))
    (broadcastTo S200x16 (shapeCast S1x16 x4 shapeCasts_S1x16_S1x16) broadcasts_S1x16_S200x16)

/-- The body's row maxima. -/
def mx : FVec Ideal S200 .f32 :=
  multiReduction .maximumf [1] S200 (lg x0 x1 x4) 0xFF800000#32 reduces_S200x16_S200 (.inl rfl) rfl

/-- The body's shifted rows. -/
def sft : FVec Ideal S200x16 .f32 :=
  subf (lg x0 x1 x4)
    (broadcastTo S200x16 (shapeCast S200x1 (mx x0 x1 x4) shapeCasts_S200_S200x1) broadcasts_S200x1_S200x16)

/-- The body's row sums of exponentials. -/
def se : FVec Ideal S200 .f32 :=
  multiReduction .add [1] S200 (exp (sft x0 x1 x4)) 0x00000000#32 reduces_S200x16_S200 (.inl rfl) rfl

/-- The body is the shifted rows minus the logarithm of the row sums, broadcast. -/
theorem k2_pay1_eq :
    k2_pay1 (F := Ideal) x0 x1 x4
      = subf (sft x0 x1 x4)
          (broadcastTo S200x16 (log (shapeCast S200x1 (se x0 x1 x4) shapeCasts_S200_S200x1)) broadcasts_S200x1_S200x16) :=
  rfl

theorem lg_apply (r : Fin 200) (q : Fin 16) : lg x0 x1 x4 (ix2 r q) = L x0 x1 x4 r q := by
  unfold lg
  rw [addf_apply, shapeCast_self, shapeCast_self, broadcastTo_1b_ab_apply]
  simp only [matmul]
  rw [Ideal.matmul_constant_zero_apply, PlainDot.sum_eq _ rfl rfl rfl rfl rfl rfl _ _ r q]
  rfl

theorem mx_apply (r : Fin 200) : mx x0 x1 x4 (ix1 r) = Gcn.rowMax (L x0 x1 x4) r := by
  refine (Ideal.multiReduction_maximumf_single (lg x0 x1 x4) _ reduces_S200x16_S200 _ _ (ix1 r)).trans ?_
  unfold Gcn.rowMax
  refine congrArg (fun f => Finset.fold max Gcn.negInfW f (Finset.univ : Finset (Fin 16))) (funext fun (k : Fin 16) => ?_)
  exact (congrArg (lg x0 x1 x4) (lift_row reduces_S200x16_S200 r k)).trans (lg_apply x0 x1 x4 r k)

theorem sft_apply (r : Fin 200) (q : Fin 16) : sft x0 x1 x4 (ix2 r q) = Gcn.shifted (L x0 x1 x4) r q := by
  unfold sft
  rw [subf_apply, broadcastTo_col_apply, shapeCast_col_apply, lg_apply, mx_apply]
  rfl

theorem se_apply (r : Fin 200) :
    se x0 x1 x4 (ix1 r) = ∑ q : Fin 16, Ideal.exp (Gcn.shifted (L x0 x1 x4) r q) := by
  refine (Ideal.multiReduction_add_single (exp (sft x0 x1 x4)) _ reduces_S200x16_S200 _ _ (ix1 r)).trans ?_
  show ∑ k : Fin 16, exp (sft x0 x1 x4) (reduces_S200x16_S200.lift (ix1 r) k) = _
  refine Finset.sum_congr rfl fun (k : Fin 16) _ => ?_
  show Ideal.exp (sft x0 x1 x4 (reduces_S200x16_S200.lift (ix1 r) k)) = _
  rw [lift_row, sft_apply]

end

theorem pay2_apply (x0 : Vec Ideal S200x10000 .f32) (x1 : Vec Ideal S10000x16 .f32) (x4 : Vec Ideal S1x16 .f32) (j : S200x16.Idx) :
    k2_pay1 (F := Ideal) x0 x1 x4 j
      = Gcn.logSoftmax (Gcn.logits (fun (r : Fin 200) (k : Fin 10000) => x0 (ix2 r k)) (fun (k : Fin 10000) (q : Fin 16) => x1 (ix2 k q))
          (fun (q : Fin 16) => x4 (ix2 0 q))) (j 0) (j 1) := by
  obtain ⟨p, q, rfl⟩ : ∃ (p : Fin 200) (q : Fin 16), j = ix2 p q := ⟨j 0, j 1, eq_ix2 j⟩
  rw [k2_pay1_eq, subf_apply, broadcastTo_col_apply]
  show sft x0 x1 x4 (ix2 p q) - FloatOps.log (shapeCast S200x1 (se x0 x1 x4) shapeCasts_S200_S200x1 (ix2 p (0 : Fin 1))) = _
  rw [shapeCast_col_apply, sft_apply, se_apply]
  rfl

end Cert.KernelIdeal.Pay2

end
-- ==== Proof.Reg2.lean ====
/-
  What the second layer's region leaves in its output array.

  The region walks 50 blocks of 200 rows.  At block t the adjacency window holds rows 200·t … 200·t+199 of the
  adjacency array, the two other input windows hold the whole hidden product and the whole bias row, and the body
  stores the block's log-softmax of logits.  The logits and the row-wise log-softmax read the adjacency operand only at
  the row asked for, so the block stored at t is rows 200·t … 200·t+199 of ONE whole-array function, and the 50 blocks
  tile the [10000,16] output: the output array ends at that function of the arrays the region was entered with.
-/
import proofs.«140044_g18150531793495_cont_8to1_460_2_alg».proof.Proof.Gen.KernelIdeal.Frame
import proofs.«140044_g18150531793495_cont_8to1_460_2_alg».proof.Proof.Pay2
import Idealize.ShloMosaic.Lib.Pipeline.Value
import Idealize.ShloMosaic.Lib.ValueIdx

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The arrays the region is entered with: the adjacency, the hidden product and the bias row. -/
abbrev adj (c : Dev nD) : Vec Ideal S10000x10000 .f32 := V c main_arg1
abbrev hid (c : Dev nD) : Vec Ideal S10000x16 .f32 := V c main_v3
abbrev bias (c : Dev nD) : Vec Ideal S1x16 .f32 := V c main_v1

/-- The three input windows' blocks at a point, at their literal types. -/
abbrev ablk (c : Dev nD) (t : Fin cfg2.N) : Vec Ideal S200x10000 .f32 := iblk2 V c 0 t
abbrev hblk (c : Dev nD) (t : Fin cfg2.N) : Vec Ideal S10000x16 .f32 := iblk2 V c 1 t
abbrev bblk (c : Dev nD) (t : Fin cfg2.N) : Vec Ideal S1x16 .f32 := iblk2 V c 2 t

/-- What the output array ends holding: the row-wise log-softmax of the logits of the entry arrays, index by index. -/
def G2 (c : Dev nD) : Vec Ideal S10000x16 .f32 := fun i =>
  Gcn.logSoftmax (Gcn.logits (fun (p : Fin 10000) (k : Fin 10000) => adj V c (ix2 p k)) (fun (k : Fin 10000) (q : Fin 16) => hid V c (ix2 k q))
    (fun (q : Fin 16) => bias V c (ix2 0 q))) (i 0) (i 1)

theorem hz : (![0, 0] : Fin 2 → Nat) = fun _ => 0 := funext fun a => by fin_cases a <;> rfl

/-- The printed index maps over the grid: the adjacency and output windows sit at block row t, column block 0; the
    other windows at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row r of block t is row 200·t + r of the array. -/
def row (t : Fin cfg2.N) (r : Fin 200) : Fin 10000 := ⟨t.val * 200 + r.val, by have := r.isLt; show _ < 10000; have : t.val < 50 := t.isLt; omega⟩

/-- The adjacency window's block at t reads the adjacency array at the block's rows. -/
theorem ablk_apply (c : Dev nD) (t : Fin cfg2.N) (r : Fin 200) (k : Fin 10000) :
    ablk V c t (ix2 r k) = adj V c (ix2 (row t r) k) := by
  obtain ⟨e0, e1, -⟩ := idx_facts t
  show V c main_arg1 (((cfg2.win 0).blk t).view.emb (ix2 r k)) = V c main_arg1 (ix2 (row t r) k)
  refine congrArg (V c main_arg1) (funext fun a => Fin.ext ?_)
  match a with
  | ⟨0, _⟩ => show win2_0.index t (0 : Fin 2) * 200 + 1 * r.val = t.val * 200 + r.val; omega
  | ⟨1, _⟩ => show win2_0.index t (1 : Fin 2) * 10000 + 1 * k.val = k.val; omega

/-- The hidden product's window holds the whole array. -/
theorem hblk_eq (c : Dev nD) (t : Fin cfg2.N) : hblk V c t = hid V c := by
  obtain ⟨-, -, e0, e1, -⟩ := idx_facts t
  funext y
  show V c main_v3 (((cfg2.win 1).blk t).view.emb y) = V c main_v3 y
  refine congrArg (V c main_v3) (funext fun a => Fin.ext ?_)
  match a with
  | ⟨0, _⟩ => show win2_1.index t (0 : Fin 2) * 10000 + 1 * (y 0).val = (y 0).val; omega
  | ⟨1, _⟩ => show win2_1.index t (1 : Fin 2) * 16 + 1 * (y 1).val = (y 1).val; omega

/-- The bias window's block is the whole bias row. -/
theorem bblk_eq (c : Dev nD) (t : Fin cfg2.N) : bblk V c t = bias V c := by
  obtain ⟨-, -, -, -, e0, e1, -⟩ := idx_facts t
  funext y
  show V c main_v1 (((cfg2.win 2).blk t).view.emb y) = V c main_v1 y
  refine congrArg (V c main_v1) (funext fun a => Fin.ext ?_)
  match a with
  | ⟨0, _⟩ => show win2_2.index t (0 : Fin 2) * 1 + 1 * (y 0).val = (y 0).val; omega
  | ⟨1, _⟩ => show win2_2.index t (1 : Fin 2) * 16 + 1 * (y 1).val = (y 1).val; omega

/-- What point t writes back is block t of the whole-array function. -/
theorem flushed2 (c : Dev nD) (t : Fin cfg2.N) :
    (dat2 V c).flushed 3 t = ((cfg2.win 3).blk t).view.read (Elt Ideal) (G2 V c) := by
  show (cfg2.win 3).cut (grid2.coords t) ((dat2 V c).after 3 t) = _
  rw [after2_3]
  unfold out2_3
  rw [View.canon_unit_zero hz]
  simp only [View.ld_unit_zero (S := S200x10000) hz, View.ld_unit_zero (S := S10000x16) hz, View.ld_unit_zero (S := S1x16) hz]
  funext j
  obtain ⟨-, -, -, -, -, -, e0, e1⟩ := idx_facts t
  show k2_pay1 (ablk V c t) (hblk V c t) (bblk V c t) (j : S200x16.Idx) = G2 V c (((cfg2.win 3).blk t).view.emb j)
  rw [hblk_eq, bblk_eq]
  refine (Pay2.pay2_apply (ablk V c t) (hid V c) (bias V c) j).trans ?_
  have hA : (fun (r : Fin 200) (k : Fin 10000) => ablk V c t (ix2 r k)) = fun r k => adj V c (ix2 (row t r) k) :=
    funext fun r => funext fun k => ablk_apply V c t r k
  rw [hA]
  have h0 : (((cfg2.win 3).blk t).view.emb j) (0 : Fin 2) = row t (j 0) := Fin.ext (by
    show win2_3.index t (0 : Fin 2) * 200 + 1 * (j 0).val = t.val * 200 + (j 0).val; omega)
  have h1 : (((cfg2.win 3).blk t).view.emb j) (1 : Fin 2) = j 1 := Fin.ext (by
    show win2_3.index t (1 : Fin 2) * 16 + 1 * (j 1).val = (j 1).val; omega)
  unfold G2
  rw [h0, h1]
  rfl

/-- An index of the output array is in point t's block iff each coordinate is in the block's range on its axis. -/
theorem mem_blk (t : Fin cfg2.N) (i : S10000x16.Idx) :
    i ∈ ((cfg2.win 3).blk t).view.set ↔ ∀ a : Fin 2, win2_3.index t a * S200x16.size a ≤ (i a).val ∧ (i a).val < win2_3.index t a * S200x16.size a + S200x16.size a := by
  show i ∈ ((View.whole main_v4).slice (win2_3.rect t)).set ↔ _
  rw [View.set_slice_whole, Rect.mem_set_unit]
  exact Iff.rfl

/-- Every index of the output array is in the block of the point its row falls in: row p is in block p / 200. -/
theorem cover (i : S10000x16.Idx) : ∃ t : Fin cfg2.N, (cfg2.win 3).flush t = true ∧ i ∈ ((cfg2.win 3).blk t).view.set := by
  have hi0 : (i 0).val < 10000 := (i 0).isLt
  have hi1 : (i 1).val < 16 := (i 1).isLt
  have ht : (i 0).val / 200 < cfg2.N := by show _ < 50; omega
  refine ⟨⟨(i 0).val / 200, ht⟩, flush2_3 _, ?_⟩
  rw [mem_blk]
  obtain ⟨-, -, -, -, -, -, e0, e1⟩ := idx_facts ⟨(i 0).val / 200, ht⟩
  intro a
  match a with
  | ⟨0, _⟩ =>
    show win2_3.index ⟨(i 0).val / 200, ht⟩ (0 : Fin 2) * 200 ≤ (i 0).val ∧ (i 0).val < win2_3.index ⟨(i 0).val / 200, ht⟩ (0 : Fin 2) * 200 + 200
    rw [e0]; show (i 0).val / 200 * 200 ≤ (i 0).val ∧ (i 0).val < (i 0).val / 200 * 200 + 200; omega
  | ⟨1, _⟩ =>
    show win2_3.index ⟨(i 0).val / 200, ht⟩ (1 : Fin 2) * 16 ≤ (i 1).val ∧ (i 1).val < win2_3.index ⟨(i 0).val / 200, ht⟩ (1 : Fin 2) * 16 + 16
    rw [e1]; omega

/-- The output array after the region: the log-softmax of the logits of the arrays it was entered with. -/
theorem final2 (c : Dev nD) : (dat2 V c).arrAt 3 cfg2.N = G2 V c :=
  (dat2 V c).arrAt_eq_of_cover 3 (G2 V c) (fun t _ => flushed2 V c t) cover

end Cert.KernelIdeal.Reg2

end
-- ==== Proof.Chain.lean ====
/-
  The kernel program's result array, as a function of the launch arrays.

  The program is two reshapes of the bias vectors to rows, then three regions.  Each region's output array ends at a
  function of the arrays that region was entered with; no region and no host operation writes an argument array, a
  region's other arrays come out as they went in, and every buffer outside a region is left alone.  Reading each
  region's entry arrays back through the boundaries — the support from the first region, the hidden product from the
  second, the bias rows from the reshapes, the adjacency and the weights from the launch — the result array is the
  whole network of the launch arrays, index by index.
-/
import proofs.«140044_g18150531793495_cont_8to1_460_2_alg».proof.Proof.Gen.KernelIdeal.Frame
import proofs.«140044_g18150531793495_cont_8to1_460_2_alg».proof.Proof.Reg0
import proofs.«140044_g18150531793495_cont_8to1_460_2_alg».proof.Proof.Reg1
import proofs.«140044_g18150531793495_cont_8to1_460_2_alg».proof.Proof.Reg2
import Idealize.ShloMosaic.Lib.StableHlo.Run
import Idealize.ShloMosaic.Lib.ValueLayout
import Idealize.ShloMosaic.Lib.ValueIdx

set_option maxRecDepth 16384

noncomputable section

namespace Cert.KernelIdeal.Chain

open Cert.KernelIdeal Cert.KernelIdeal.Gen Idealize.ShloMosaic Idealize.ShloMosaic.TcCoe Idealize.ShloMosaic.ValueIdx
open Idealize.SL Idealize.SL.Sem Idealize.ShloMosaic.StableHlo

variable (m : (ℓ : Loc nD τ sig) → Buf (Elt Ideal) ℓ) (ρ : Dev nD → PrngReg)

/-! ## The launch arrays as indexed families -/

abbrev famX (c : Dev nD) : Fin 10000 → Fin 128 → EReal := fun p k => (m ((c : Thread nD τ).loc main_arg0) : Vec Ideal S10000x128 .f32) (ix2 p k)
abbrev famA (c : Dev nD) : Fin 10000 → Fin 10000 → EReal := fun p k => (m ((c : Thread nD τ).loc main_arg1) : Vec Ideal S10000x10000 .f32) (ix2 p k)
abbrev famW1 (c : Dev nD) : Fin 128 → Fin 64 → EReal := fun k h => (m ((c : Thread nD τ).loc main_arg2) : Vec Ideal S128x64 .f32) (ix2 k h)
abbrev famB1 (c : Dev nD) : Fin 64 → EReal := fun h => (m ((c : Thread nD τ).loc main_arg3) : Vec Ideal S64 .f32) (ix1 h)
abbrev famW2 (c : Dev nD) : Fin 64 → Fin 16 → EReal := fun h q => (m ((c : Thread nD τ).loc main_arg4) : Vec Ideal S64x16 .f32) (ix2 h q)
abbrev famB2 (c : Dev nD) : Fin 16 → EReal := fun q => (m ((c : Thread nD τ).loc main_arg5) : Vec Ideal S16 .f32) (ix1 q)

/-! ## Each region's result depends on its entry contents only through the arrays it reads -/

section Through
variable (V : (c : Dev nD) → (b : Ref sig .tc) → Buf (Elt Ideal) ((c : Thread nD τ).loc b))

theorem G0_of (c : Dev nD) (X : Fin 10000 → Fin 128 → EReal) (W : Fin 128 → Fin 64 → EReal)
    (hX : ∀ p k, (V c main_arg0 : Vec Ideal S10000x128 .f32) (ix2 p k) = X p k)
    (hW : ∀ k h, (V c main_arg2 : Vec Ideal S128x64 .f32) (ix2 k h) = W k h) :
    Reg0.G0 V c = fun i => Gcn.mm X W (i 0) (i 1) := by
  have eX : (fun (p : Fin 10000) (k : Fin 128) => Reg0.feat V c (ix2 p k)) = X := funext fun p => funext fun k => hX p k
  have eW : (fun (k : Fin 128) (h : Fin 64) => Reg0.wgt V c (ix2 k h)) = W := funext fun k => funext fun h => hW k h
  unfold Reg0.G0
  rw [eX, eW]

theorem G1_of (c : Dev nD) (A : Fin 10000 → Fin 10000 → EReal) (S : Fin 10000 → Fin 64 → EReal) (b : Fin 64 → EReal)
    (W : Fin 64 → Fin 16 → EReal)
    (hA : ∀ p k, (V c main_arg1 : Vec Ideal S10000x10000 .f32) (ix2 p k) = A p k)
    (hS : ∀ k h, (V c main_v2 : Vec Ideal S10000x64 .f32) (ix2 k h) = S k h)
    (hb : ∀ h, (V c main_v0 : Vec Ideal S1x64 .f32) (ix2 0 h) = b h)
    (hW : ∀ h q, (V c main_arg4 : Vec Ideal S64x16 .f32) (ix2 h q) = W h q) :
    Reg1.G1 V c = fun i => Gcn.hidden A S b W (i 0) (i 1) := by
  have eA : (fun (p : Fin 10000) (k : Fin 10000) => Reg1.adj V c (ix2 p k)) = A := funext fun p => funext fun k => hA p k
  have eS : (fun (k : Fin 10000) (h : Fin 64) => Reg1.sup V c (ix2 k h)) = S := funext fun k => funext fun h => hS k h
  have eb : (fun (h : Fin 64) => Reg1.bias V c (ix2 0 h)) = b := funext fun h => hb h
  have eW : (fun (h : Fin 64) (q : Fin 16) => Reg1.wgt V c (ix2 h q)) = W := funext fun h => funext fun q => hW h q
  unfold Reg1.G1
  rw [eA, eS, eb, eW]

theorem G2_of (c : Dev nD) (A : Fin 10000 → Fin 10000 → EReal) (T : Fin 10000 → Fin 16 → EReal) (b : Fin 16 → EReal)
    (hA : ∀ p k, (V c main_arg1 : Vec Ideal S10000x10000 .f32) (ix2 p k) = A p k)
    (hT : ∀ k q, (V c main_v3 : Vec Ideal S10000x16 .f32) (ix2 k q) = T k q)
    (hb : ∀ q, (V c main_v1 : Vec Ideal S1x16 .f32) (ix2 0 q) = b q) :
    Reg2.G2 V c = fun i => Gcn.logSoftmax (Gcn.logits A T b) (i 0) (i 1) := by
  have eA : (fun (p : Fin 10000) (k : Fin 10000) => Reg2.adj V c (ix2 p k)) = A := funext fun p => funext fun k => hA p k
  have eT : (fun (k : Fin 10000) (q : Fin 16) => Reg2.hid V c (ix2 k q)) = T := funext fun k => funext fun q => hT k q
  have eb : (fun (q : Fin 16) => Reg2.bias V c (ix2 0 q)) = b := funext fun q => hb q
  unfold Reg2.G2
  rw [eA, eT, eb]

end Through

/-! ## After the two reshapes (the first region's entry) -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))).trans rfl
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))).trans rfl
theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))).trans rfl
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))).trans rfl

/-- The first bias as a row: the reshape of the [64] vector to [1, 64]. -/
theorem W1_v0 (c : Dev nD) : (W1 m ρ c (Proc.devRef .tc main_v0) : Vec Ideal S1x64 .f32)
    = shapeCast S1x64 (m ((c : Thread nD τ).loc main_arg3) : Vec Ideal S64 .f32) shapeCasts_S64_S1x64 := by
  show StableHlo.after hostOps0 (W0 m ρ c) (Proc.devRef .tc main_v0) = _
  after_results <;> rfl

/-- The second bias as a row: the reshape of the [16] vector to [1, 16]. -/
theorem W1_v1 (c : Dev nD) : (W1 m ρ c (Proc.devRef .tc main_v1) : Vec Ideal S1x16 .f32)
    = shapeCast S1x16 (m ((c : Thread nD τ).loc main_arg5) : Vec Ideal S16 .f32) shapeCasts_S16_S1x16 := by
  show StableHlo.after hostOps0 (W0 m ρ c) (Proc.devRef .tc main_v1) = _
  after_results <;> rfl

/-! ## After the first region (the second region's entry) -/

theorem W2_arg1 (c : Dev nD) : W2 m ρ c (Proc.devRef .tc main_arg1) = m ((c : Thread nD τ).loc main_arg1) :=
  (W2_of_ne m ρ c main_arg1 (by decide)).trans (W1_arg1 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v0 (c : Dev nD) : (W2 m ρ c (Proc.devRef .tc main_v0) : Vec Ideal S1x64 .f32)
    = shapeCast S1x64 (m ((c : Thread nD τ).loc main_arg3) : Vec Ideal S64 .f32) shapeCasts_S64_S1x64 :=
  (W2_of_ne m ρ c main_v0 (by decide)).trans (W1_v0 m ρ c)
theorem W2_v1 (c : Dev nD) : (W2 m ρ c (Proc.devRef .tc main_v1) : Vec Ideal S1x16 .f32)
    = shapeCast S1x16 (m ((c : Thread nD τ).loc main_arg5) : Vec Ideal S16 .f32) shapeCasts_S16_S1x16 :=
  (W2_of_ne m ρ c main_v1 (by decide)).trans (W1_v1 m ρ c)

/-- The support: the first region's output array is the product of the features with the first weight. -/
theorem W2_v2 (c : Dev nD) : (W2 m ρ c (Proc.devRef .tc main_v2) : Vec Ideal S10000x64 .f32)
    = fun i => Gcn.mm (famX m c) (famW1 m c) (i 0) (i 1) :=
  ((W2_arr m ρ c 2).trans (Reg0.final0 (V1 m ρ) c)).trans
    (G0_of (V1 m ρ) c (famX m c) (famW1 m c)
      (fun p k => congrFun (W1_arg0 m ρ c) (ix2 p k)) (fun k h => congrFun (W1_arg2 m ρ c) (ix2 k h)))

/-! ## After the second region (the third region's entry) -/

theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)
theorem W3_v1 (c : Dev nD) : (W3 m ρ c (Proc.devRef .tc main_v1) : Vec Ideal S1x16 .f32)
    = shapeCast S1x16 (m ((c : Thread nD τ).loc main_arg5) : Vec Ideal S16 .f32) shapeCasts_S16_S1x16 :=
  (W3_of_ne m ρ c main_v1 (by decide)).trans (W2_v1 m ρ c)

/-- The hidden product: the second region's output array. -/
theorem W3_v3 (c : Dev nD) : (W3 m ρ c (Proc.devRef .tc main_v3) : Vec Ideal S10000x16 .f32)
    = fun i => Gcn.hidden (famA m c) (Gcn.mm (famX m c) (famW1 m c)) (famB1 m c) (famW2 m c) (i 0) (i 1) :=
  ((W3_arr m ρ c 4).trans (Reg1.final1 (V2 m ρ) c)).trans
    (G1_of (V2 m ρ) c (famA m c) (Gcn.mm (famX m c) (famW1 m c)) (famB1 m c) (famW2 m c)
      (fun p k => congrFun (W2_arg1 m ρ c) (ix2 p k))
      (fun k h => congrFun (W2_v2 m ρ c) (ix2 k h))
      (fun h => (congrFun (W2_v0 m ρ c) (ix2 0 h)).trans (shapeCast_a_1a_apply _ _ 0 h))
      (fun h q => congrFun (W2_arg4 m ρ c) (ix2 h q)))

/-! ## After the third region: the result -/

/-- The result array is the whole network of the launch arrays. -/
theorem result_eq (c : Dev nD) : (V4 m ρ c main_v4 : Vec Ideal S10000x16 .f32)
    = fun i => Gcn.net (famX m c) (famA m c) (famW1 m c) (famB1 m c) (famW2 m c) (famB2 m c) (i 0) (i 1) :=
  ((W4_arr m ρ c 3).trans (Reg2.final2 (V3 m ρ) c)).trans
    (G2_of (V3 m ρ) c (famA m c) (Gcn.hidden (famA m c) (Gcn.mm (famX m c) (famW1 m c)) (famB1 m c) (famW2 m c)) (famB2 m c)
      (fun p k => congrFun (W3_arg1 m ρ c) (ix2 p k))
      (fun k q => congrFun (W3_v3 m ρ c) (ix2 k q))
      (fun q => (congrFun (W3_v1 m ρ c) (ix2 0 q)).trans (shapeCast_a_1a_apply _ _ 0 q)))

end Cert.KernelIdeal.Chain

end
-- ==== Proof.RefValue.lean ====
/-
  The reference program's result, read at an index, is the two-layer graph convolution with a row-wise log-softmax of
  `Gcn.net`, applied to the arguments seen as indexed families.

  The reference computes, one host operation at a time,

      S = X · W1,   P = A · S,   R = max (P + b1, 0),   T = R · W2,   L = A · T + b2,
      m = max (−∞, rowmax L),   D = L − m,   out = D − log (Σ_q exp D).

  Each stage below is read at explicit coordinates: a contraction is the sum over its one contracted coordinate, a
  broadcast reads its operand at the coordinates it keeps, and the row maximum is the fold of `max` from minus infinity
  along the row.  The second maximum with minus infinity changes nothing, the fold being at least its starting value.
  No law of arithmetic is used: the sums are the same sums in the same grouping.
-/
import proofs.«140044_g18150531793495_cont_8to1_460_2_alg».proof.Proof.RefRead
import proofs.«140044_g18150531793495_cont_8to1_460_2_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefValue

open Cert.ReferenceIdeal Idealize.ShloMosaic Idealize.ShloMosaic.ValueIdx
open Cert.ReferenceIdeal.ReadP

section Stages

variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64, .f32⟩ : BufTy).Contents (Elt Ideal))
  (x4 : (⟨S64x16, .f32⟩ : BufTy).Contents (Elt Ideal)) (x5 : (⟨S16, .f32⟩ : BufTy).Contents (Elt Ideal))

/-- The arguments as indexed families. -/
abbrev famX : Fin 10000 → Fin 128 → EReal := fun p k => x0 (ix2 p k)
abbrev famA : Fin 10000 → Fin 10000 → EReal := fun p k => x1 (ix2 p k)
abbrev famW1 : Fin 128 → Fin 64 → EReal := fun k h => x2 (ix2 k h)
abbrev famB1 : Fin 64 → EReal := fun h => x3 (ix1 h)
abbrev famW2 : Fin 64 → Fin 16 → EReal := fun h q => x4 (ix2 h q)
abbrev famB2 : Fin 16 → EReal := fun q => x5 (ix1 q)

/-- The first layer's support S = X · W1. -/
theorem v0_at (p : Fin 10000) (h : Fin 64) :
    val_main_v0 (F := Ideal) x0 x2 (ix2 p h) = Gcn.mm (famX x0) (famW1 x2) p h := by
  rw [val_main_v0_apply]
  unfold Gcn.mm
  refine Finset.sum_congr rfl fun k _ => ?_
  have el : lidx_main_v0 (ix2 p h) k = ix2 p k :=
    funext fun a => Fin.ext (by match a with | ⟨0, _⟩ => rfl | ⟨1, _⟩ => rfl)
  have er : ridx_main_v0 (ix2 p h) k = ix2 k h :=
    funext fun a => Fin.ext (by match a with | ⟨0, _⟩ => rfl | ⟨1, _⟩ => rfl)
  rw [el, er]

/-- The aggregated support P = A · S. -/
theorem v1_at (p : Fin 10000) (h : Fin 64) :
    val_main_v1 (F := Ideal) x0 x1 x2 (ix2 p h) = Gcn.mm (famA x1) (Gcn.mm (famX x0) (famW1 x2)) p h := by
  rw [val_main_v1_apply]
  unfold Gcn.mm
  refine Finset.sum_congr rfl fun k _ => ?_
  have el : lidx_main_v1 (ix2 p h) k = ix2 p k :=
    funext fun a => Fin.ext (by match a with | ⟨0, _⟩ => rfl | ⟨1, _⟩ => rfl)
  have er : ridx_main_v1 (ix2 p h) k = ix2 k h :=
    funext fun a => Fin.ext (by match a with | ⟨0, _⟩ => rfl | ⟨1, _⟩ => rfl)
  rw [el, er, v0_at]
  rfl

/-- The first bias, broadcast along the rows. -/
theorem v3_at (p : Fin 10000) (h : Fin 64) : val_main_v3 (F := Ideal) x3 (ix2 p h) = x3 (ix1 h) := by
  rw [val_main_v3_apply, val_main_v2_apply]
  exact congrArg x3 (funext fun a => Fin.ext (by match a with | ⟨0, _⟩ => rfl))

/-- The word the rectifier compares against. -/
theorem v5_at (p : Fin 10000) (h : Fin 64) : val_main_v5 (F := Ideal) (ix2 p h) = Gcn.zeroW := by
  rw [val_main_v5_apply, val_main_cst_apply]
  rfl

/-- The rectified first layer R = max (P + b1, 0). -/
theorem v6_at (p : Fin 10000) (h : Fin 64) :
    val_main_v6 (F := Ideal) x0 x1 x2 x3 (ix2 p h)
      = max (Gcn.mm (famA x1) (Gcn.mm (famX x0) (famW1 x2)) p h + famB1 x3 h) Gcn.zeroW := by
  rw [val_main_v6_apply, val_main_v4_apply, v1_at, v3_at, v5_at]
  rfl

/-- The rectified first layer times the second weight, T = R · W2. -/
theorem v7_at (p : Fin 10000) (q : Fin 16) :
    val_main_v7 (F := Ideal) x0 x1 x2 x3 x4 (ix2 p q)
      = Gcn.hidden (famA x1) (Gcn.mm (famX x0) (famW1 x2)) (famB1 x3) (famW2 x4) p q := by
  rw [val_main_v7_apply]
  unfold Gcn.hidden
  refine Finset.sum_congr rfl fun k _ => ?_
  have el : lidx_main_v7 (ix2 p q) k = ix2 p k :=
    funext fun a => Fin.ext (by match a with | ⟨0, _⟩ => rfl | ⟨1, _⟩ => rfl)
  have er : ridx_main_v7 (ix2 p q) k = ix2 k q :=
    funext fun a => Fin.ext (by match a with | ⟨0, _⟩ => rfl | ⟨1, _⟩ => rfl)
  rw [el, er, v6_at]

/-- The second aggregation A · T. -/
theorem v8_at (p : Fin 10000) (q : Fin 16) :
    val_main_v8 (F := Ideal) x0 x1 x2 x3 x4 (ix2 p q)
      = Gcn.mm (famA x1) (Gcn.hidden (famA x1) (Gcn.mm (famX x0) (famW1 x2)) (famB1 x3) (famW2 x4)) p q := by
  rw [val_main_v8_apply]
  unfold Gcn.mm
  refine Finset.sum_congr rfl fun k _ => ?_
  have el : lidx_main_v8 (ix2 p q) k = ix2 p k :=
    funext fun a => Fin.ext (by match a with | ⟨0, _⟩ => rfl | ⟨1, _⟩ => rfl)
  have er : ridx_main_v8 (ix2 p q) k = ix2 k q :=
    funext fun a => Fin.ext (by match a with | ⟨0, _⟩ => rfl | ⟨1, _⟩ => rfl)
  rw [el, er, v7_at]
  rfl

/-- The second bias, broadcast along the rows. -/
theorem v10_at (p : Fin 10000) (q : Fin 16) : val_main_v10 (F := Ideal) x5 (ix2 p q) = x5 (ix1 q) := by
  rw [val_main_v10_apply, val_main_v9_apply]
  exact congrArg x5 (funext fun a => Fin.ext (by match a with | ⟨0, _⟩ => rfl))

/-- The logits of the arguments, as a family. -/
abbrev famL : Fin 10000 → Fin 16 → EReal :=
  Gcn.logits (famA x1) (Gcn.hidden (famA x1) (Gcn.mm (famX x0) (famW1 x2)) (famB1 x3) (famW2 x4)) (famB2 x5)

/-- The logits L = A · T + b2. -/
theorem v11_at (p : Fin 10000) (q : Fin 16) :
    val_main_v11 (F := Ideal) x0 x1 x2 x3 x4 x5 (ix2 p q) = famL x0 x1 x2 x3 x4 x5 p q := by
  rw [val_main_v11_apply, v8_at, v10_at]
  rfl

/-- The row maximum as the reference first computes it: the fold of `max` from minus infinity along the row. -/
theorem rowfold_at (p : Fin 10000) :
    val_main_call0_v0 (F := Ideal) x0 x1 x2 x3 x4 x5 (ix1 p) = Gcn.rowMax (famL x0 x1 x2 x3 x4 x5) p := by
  unfold val_main_call0_v0
  have hred : S10000x16.Reduces [1] S10000 := by decide
  rw [Host.reduce_eq_fold_single (FloatOps.maximumf (F := Ideal) (φ := .f32)) _ _ _ hred _ (ix1 p)]
  have hf : (val_main_v11 (F := Ideal) x0 x1 x2 x3 x4 x5 ∘ hred.lift (ix1 p))
      = fun q : Fin 16 => famL x0 x1 x2 x3 x4 x5 p q := funext fun (k : Fin 16) => by
    have e : hred.lift (ix1 p) k = ix2 p k :=
      funext fun a => Fin.ext (by match a with | ⟨0, _⟩ => rfl | ⟨1, _⟩ => rfl)
    show val_main_v11 (F := Ideal) x0 x1 x2 x3 x4 x5 (hred.lift (ix1 p) k) = _
    rw [e, v11_at]
  rw [hf]
  rfl

/-- The row maximum after the reference's second maximum with minus infinity, which changes nothing. -/
theorem rowmax_at (p : Fin 10000) :
    val_main_call0_v2 (F := Ideal) x0 x1 x2 x3 x4 x5 (ix1 p) = Gcn.rowMax (famL x0 x1 x2 x3 x4 x5) p := by
  rw [val_main_call0_v2_apply, val_main_call0_v1_apply, val_main_call0_cst_0_apply, rowfold_at]
  exact Gcn.max_fold_max_self _ _ _

/-- The shifted logits D = L − rowmax L. -/
theorem shifted_at (p : Fin 10000) (q : Fin 16) :
    val_main_call0_v5 (F := Ideal) x0 x1 x2 x3 x4 x5 (ix2 p q) = Gcn.shifted (famL x0 x1 x2 x3 x4 x5) p q := by
  rw [val_main_call0_v5_apply, val_main_call0_v4_apply, val_main_call0_v3_apply, v11_at]
  have e : idx_main_call0_v3 (idx_main_call0_v4 (ix2 p q)) = ix1 p :=
    funext fun a => Fin.ext (by match a with | ⟨0, _⟩ => rfl)
  rw [e, rowmax_at]
  rfl

/-- The row's sum of exponentials of shifted logits: the float sum starts from the zero word. -/
theorem sumexp_at (p : Fin 10000) :
    val_main_call0_v7 (F := Ideal) x0 x1 x2 x3 x4 x5 (ix1 p)
      = ∑ q' : Fin 16, Ideal.exp (Gcn.shifted (famL x0 x1 x2 x3 x4 x5) p q') := by
  rw [val_main_call0_v7_apply, val_main_call0_cst_1_apply, Ideal.ofBits_def, Ideal.ofBits_zero_f32, zero_add]
  refine Finset.sum_congr rfl fun k _ => ?_
  have e : idx_main_call0_v7 (ix1 p) k = ix2 p k :=
    funext fun a => Fin.ext (by match a with | ⟨0, _⟩ => rfl | ⟨1, _⟩ => rfl)
  rw [e, val_main_call0_v6_apply, shifted_at]
  rfl

/-- The reference's result at explicit coordinates. -/
theorem v12_at (p : Fin 10000) (q : Fin 16) :
    val_main_v12 (F := Ideal) x0 x1 x2 x3 x4 x5 (ix2 p q)
      = Gcn.net (famX x0) (famA x1) (famW1 x2) (famB1 x3) (famW2 x4) (famB2 x5) p q := by
  rw [val_main_v12_apply, val_main_call0_v10_apply, val_main_call0_v9_apply, val_main_call0_v8_apply, shifted_at]
  have e : idx_main_call0_v8 (idx_main_call0_v10 (ix2 p q)) = ix1 p :=
    funext fun a => Fin.ext (by match a with | ⟨0, _⟩ => rfl)
  rw [e, sumexp_at]
  rfl

end Stages

/-- The reference's result is the network of the arguments, at every index. -/
theorem ref_net (x0 : (⟨S10000x128, .f32⟩ : BufTy).Contents (Elt Ideal)) (x1 : (⟨S10000x10000, .f32⟩ : BufTy).Contents (Elt Ideal))
    (x2 : (⟨S128x64, .f32⟩ : BufTy).Contents (Elt Ideal)) (x3 : (⟨S64, .f32⟩ : BufTy).Contents (Elt Ideal))
    (x4 : (⟨S64x16, .f32⟩ : BufTy).Contents (Elt Ideal)) (x5 : (⟨S16, .f32⟩ : BufTy).Contents (Elt Ideal)) (i : S10000x16.Idx) :
    Cert.ReferenceIdeal.ReadP.val_main_v12 (F := Ideal) x0 x1 x2 x3 x4 x5 i
      = Gcn.net (fun (p : Fin 10000) (k : Fin 128) => x0 (ix2 p k)) (fun (p : Fin 10000) (k : Fin 10000) => x1 (ix2 p k))
          (fun (k : Fin 128) (h : Fin 64) => x2 (ix2 k h)) (fun (h : Fin 64) => x3 (ix1 h))
          (fun (h : Fin 64) (q : Fin 16) => x4 (ix2 h q)) (fun (q : Fin 16) => x5 (ix1 q)) (i 0) (i 1) := by
  obtain ⟨p, q, rfl⟩ : ∃ (p : Fin 10000) (q : Fin 16), i = ix2 p q := ⟨i 0, i 1, eq_ix2 i⟩
  exact v12_at x0 x1 x2 x3 x4 x5 p q

end Cert.ReferenceIdeal.RefValue

end
-- ==== Proof.lean ====
/-
  A two-layer graph convolution over a dense adjacency array with a row-wise log-softmax,

      out = log_softmax (A · (relu (A · (X · W1) + b1) · W2) + b2),

  computed by three kernels — the support X · W1 in one block; then, over 50 blocks of 200 rows of A, the rectified
  first layer times W2 with the hidden activation never kept; then, over the same blocks, the logits and their
  log-softmax fused into the block's store — against the same formula computed on whole arrays.

  At the extended reals both programs are ONE function of the argument arrays, index by index (`Gcn.net`): every matrix
  product is the bare contraction sum (the kernels accumulate into a zero splat), the blocks of rows only restrict the
  adjacency's rows, which every stage reads at the row asked for, a row maximum is the fold of max from minus infinity on
  both sides (the reference's further maximum with minus infinity changes nothing), and the sum of exponentials starts
  from zero on both sides.  No law of arithmetic joins the two sides, so the precondition is never opened.

  The kernel program's three frames' worth of run comes from the generated frame with the result array named; each
  region's output array is read off its blocks; the reference's run and its stages come from the generated run and
  read-at-an-index modules.  The idealization rewrote no operation, so `preserves` is trivial.
-/
import proofs.«140044_g18150531793495_cont_8to1_460_2_alg».proof.Defs
import proofs.«140044_g18150531793495_cont_8to1_460_2_alg».proof.Proof.Gen.Kernel
import proofs.«140044_g18150531793495_cont_8to1_460_2_alg».proof.Proof.Gen.Kernel.Frame
import proofs.«140044_g18150531793495_cont_8to1_460_2_alg».proof.Proof.Gen.KernelIdeal
import proofs.«140044_g18150531793495_cont_8to1_460_2_alg».proof.Proof.Gen.KernelIdeal.Frame
import proofs.«140044_g18150531793495_cont_8to1_460_2_alg».proof.Proof.Gen.ReferenceIdeal
import proofs.«140044_g18150531793495_cont_8to1_460_2_alg».proof.Proof.Gen.Pre_finite_inputs
import proofs.«140044_g18150531793495_cont_8to1_460_2_alg».proof.Proof.KRun
import proofs.«140044_g18150531793495_cont_8to1_460_2_alg».proof.Proof.Chain
import proofs.«140044_g18150531793495_cont_8to1_460_2_alg».proof.Proof.RefRun
import proofs.«140044_g18150531793495_cont_8to1_460_2_alg».proof.Proof.RefRead
import proofs.«140044_g18150531793495_cont_8to1_460_2_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel program runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- At the extended reals the kernel program's result array and the reference's end at the same function of the
    arguments, the whole network `Gcn.net` of the argument arrays. -/
theorem algebraic : Cert.algebraic_KernelIdeal_ReferenceIdeal := by
  intro m ρ m' ρ' _ hagree
  refine ⟨fun c => fun i => Gcn.net (Cert.KernelIdeal.Chain.famX m c) (Cert.KernelIdeal.Chain.famA m c)
    (Cert.KernelIdeal.Chain.famW1 m c) (Cert.KernelIdeal.Chain.famB1 m c) (Cert.KernelIdeal.Chain.famW2 m c)
    (Cert.KernelIdeal.Chain.famB2 m c) (i 0) (i 1), ?_, ?_⟩
  · exact (θ_run Cert.KernelIdeal.defs _ _).mono
      (fun r h c => ⟨(h c).1.trans (Cert.KernelIdeal.Chain.result_eq m ρ c), (h c).2⟩)
      (Cert.KernelIdeal.GenRun.run_named (F := Ideal) m ρ)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v12_eq]
    funext i
    rw [Cert.ReferenceIdeal.RefValue.ref_net]
    obtain ⟨h0, h1, h2, h3, h4, h5⟩ := hagree c
    rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
